-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S16384x4096 : Shape := ⟨2, ![16384, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S16384x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)

variable [Facts₀]

class Facts : Prop extends Facts₀ where

variable [Facts]
-- ==== Proof.KernelBlocks.lean ====
/-
  From blocks to the array: what the kernel leaves in its result, with the region's arrays as it finds them.

  The grid has 32 points. Point `t` is handed rows `512·t … 512·t + 511` of the matrix (all 4096 columns), the
  one row holding the scale and the one row holding the shift, and writes back the same 512 rows of the result.
  Inside a block, entry `(p, j)` of what is written is `x[512·t + p, j] · w[0, j] + b[0, j]`: the scale's and the
  shift's single row is repeated down the block's 512 rows. So every point writes its own rows of ONE function of
  the three arrays, `affine`, and since the 32 row blocks tile the 16384 rows the result array ends holding that
  function everywhere.
-/
import proofs.«427178_j283467842320_3_alg».proof.Proof.Gen.KernelIdeal.Value
import Idealize.ShloMosaic.Lib.Pipeline.Value

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The zero offsets of a whole-block access, however they are spelt. -/
theorem zero_offsets : (![0, 0] : Fin 2 → Nat) = fun _ => 0 := funext fun a => by fin_cases a <;> rfl

/-- The entry of a one-row array that lies under a matrix index: row 0, the same column. -/
abbrev under (i : S16384x4096.Idx) : S1x4096.Idx := fun a => match a with
  | ⟨0, _⟩ => ⟨0, Nat.one_pos⟩
  | ⟨1, _⟩ => ⟨(i 1).val, (i 1).isLt⟩

/-- The matrix scaled and shifted by one-row arrays: entry `(r, j)` is `x[r, j] · w[0, j] + b[0, j]`. -/
abbrev affine (x : S16384x4096.Idx → Elt F .f32) (w b : S1x4096.Idx → Elt F .f32) : S16384x4096.Idx → Elt F .f32 :=
  fun i => FloatOps.addf (FloatOps.mulf (x i) (w (under i))) (b (under i))

/-- Where the windows sit at each of the 32 points: the matrix's and the result's blocks are row block `t`, all
    columns; the scale's and the shift's are their whole single row. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, j)` of the block the body leaves, from ANY three loaded blocks: the matrix block's entry `(p, j)` times
    the scale row's entry `(0, j)`, plus the shift row's entry `(0, j)`. -/
theorem block_value (x0 : Vec F S512x4096 .f32) (x1 x2 : Vec F S1x4096 .f32) (y : S512x4096.Idx) :
    out0_3 x0 x1 x2 y = FloatOps.addf (FloatOps.mulf (x0 y) (x1 (ix3_1 y))) (x2 (ix3_2 y)) := by
  unfold out0_3
  rw [canon3_eq]
  simp only [View.ld_unit_zero (S := S512x4096) zero_offsets, View.ld_unit_zero (S := S1x4096) zero_offsets]
  have hy : ix3_0 y = y := funext fun a => Fin.ext (by match a with | ⟨0, _⟩ => rfl | ⟨1, _⟩ => rfl)
  show FloatOps.addf (FloatOps.mulf (x0 (ix3_0 y)) (x1 (ix3_1 y))) (x2 (ix3_2 y)) = _
  rw [hy]

/-- The matrix's block at point `t` is rows `512·t … 512·t + 511` of the matrix as the region finds it. -/
theorem matrix_block (c : Dev nD) (t : Fin cfg0.N) (y : S512x4096.Idx) (k : S16384x4096.Idx)
    (hk0 : (k 0).val = 512 * t.val + (y 0).val) (hk1 : (k 1).val = (y 1).val) :
    (iblk m c 0 t : Vec F S512x4096 .f32) y = (V m c main_arg0 : S16384x4096.Idx → Elt F .f32) k := by
  obtain ⟨e0, e1, -⟩ := block_indices t
  unfold iblk
  rw [View.read_apply]
  show V m c main_arg0 _ = V m c main_arg0 _
  congr 1
  funext a
  apply Fin.ext
  match a with
  | ⟨0, _⟩ => show win0_0.index t (0 : Fin 2) * 512 + 1 * (y 0).val = (k 0).val; omega
  | ⟨1, _⟩ => show win0_0.index t (1 : Fin 2) * 4096 + 1 * (y 1).val = (k 1).val; omega

/-- The scale's block at every point is the whole one-row array the region finds. -/
theorem scale_block (c : Dev nD) (t : Fin cfg0.N) (y k : S1x4096.Idx) (hk : (k 1).val = (y 1).val) :
    (iblk m c 1 t : Vec F S1x4096 .f32) y = (V m c main_v0 : S1x4096.Idx → Elt F .f32) k := by
  obtain ⟨-, -, e2, e3, -⟩ := block_indices t
  have hy0 : (y 0).val = 0 := by have h : (y 0).val < 1 := (y 0).isLt; omega
  have hk0 : (k 0).val = 0 := by have h : (k 0).val < 1 := (k 0).isLt; omega
  unfold iblk
  rw [View.read_apply]
  show V m c main_v0 _ = V m c main_v0 _
  congr 1
  funext a
  apply Fin.ext
  match a with
  | ⟨0, _⟩ => show win0_1.index t (0 : Fin 2) * 1 + 1 * (y 0).val = (k 0).val; omega
  | ⟨1, _⟩ => show win0_1.index t (1 : Fin 2) * 4096 + 1 * (y 1).val = (k 1).val; omega

/-- The shift's block at every point is the whole one-row array the region finds. -/
theorem shift_block (c : Dev nD) (t : Fin cfg0.N) (y k : S1x4096.Idx) (hk : (k 1).val = (y 1).val) :
    (iblk m c 2 t : Vec F S1x4096 .f32) y = (V m c main_v1 : S1x4096.Idx → Elt F .f32) k := by
  obtain ⟨-, -, -, -, e4, e5, -⟩ := block_indices t
  have hy0 : (y 0).val = 0 := by have h : (y 0).val < 1 := (y 0).isLt; omega
  have hk0 : (k 0).val = 0 := by have h : (k 0).val < 1 := (k 0).isLt; omega
  unfold iblk
  rw [View.read_apply]
  show V m c main_v1 _ = V m c main_v1 _
  congr 1
  funext a
  apply Fin.ext
  match a with
  | ⟨0, _⟩ => show win0_2.index t (0 : Fin 2) * 1 + 1 * (y 0).val = (k 0).val; omega
  | ⟨1, _⟩ => show win0_2.index t (1 : Fin 2) * 4096 + 1 * (y 1).val = (k 1).val; omega

/-- What point `t` writes back is its 512 rows of `affine` of the arrays as the region finds them. -/
theorem flushed_eq (c : Dev nD) (t : Fin cfg0.N) :
    (dats m 0 c).flushed 3 t
      = ((cfg0.win 3).blk t).view.read (Elt F) (affine (V m c main_arg0) (V m c main_v0) (V m c main_v1)) := by
  obtain ⟨-, -, -, -, -, -, e6, e7⟩ := block_indices t
  rw [flushed3]
  funext j
  refine (block_value _ _ _ _).trans ?_
  rw [View.read_apply]
  have hj0 : (j 0).val < 512 := (j 0).isLt
  have hj1 : (j 1).val < 4096 := (j 1).isLt
  have r0 : ((((cfg0.win 3).blk t).view.emb j : S16384x4096.Idx) 0).val = 512 * t.val + (j 0).val := by
    show win0_3.index t (0 : Fin 2) * 512 + 1 * (j 0).val = _; omega
  have r1 : ((((cfg0.win 3).blk t).view.emb j : S16384x4096.Idx) 1).val = (j 1).val := by
    show win0_3.index t (1 : Fin 2) * 4096 + 1 * (j 1).val = _; omega
  exact congrArg₂ FloatOps.addf
    (congrArg₂ FloatOps.mulf (matrix_block m c t _ _ r0 r1) (scale_block m c t _ _ r1))
    (shift_block m c t _ _ r1)

/-- An index of the result lies in point `t`'s block iff each coordinate lies in the block's range on its axis. -/
theorem mem_block (t : Fin cfg0.N) (i : S16384x4096.Idx) :
    i ∈ ((cfg0.win 3).blk t).view.set
      ↔ ∀ a : Fin 2, win0_3.index t a * S512x4096.size a ≤ (i a).val ∧ (i a).val < win0_3.index t a * S512x4096.size a + S512x4096.size a := by
  show i ∈ ((View.whole main_v2).slice (win0_3.rect t)).set ↔ _
  rw [View.set_slice_whole, Rect.mem_set_unit]
  exact Iff.rfl

/-- The 32 row blocks tile the rows: row `r` lies in the block of point `r / 512`. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 32 := N_0
  let t : Fin cfg0.N := ⟨(i 0).val / 512, by rw [hN]; omega⟩
  obtain ⟨-, -, -, -, -, -, e6, e7⟩ := block_indices t
  have ht : t.val = (i 0).val / 512 := rfl
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- After the run the result array holds `affine` of the arrays as the region finds them, everywhere. -/
theorem final (c : Dev nD) :
    (dats m 0 c).arrAt 3 cfg0.N = affine (V m c main_arg0) (V m c main_v0) (V m c main_v1) :=
  (dats m 0 c).arrAt_eq_of_cover 3 (affine (V m c main_arg0) (V m c main_v0) (V m c main_v1))
    (fun t _ => flushed_eq m c t) covered

end Cert.KernelIdeal.Blocks

end
-- ==== Proof.Spec.lean ====
/-
  The function both programs compute, stated once and over no program: a matrix of 16384 rows and 4096 columns
  scaled column by column and shifted column by column,

      out[r, j] = x[r, j] · w[j] + b[j],

  with the product and the sum those of the float instance at hand (at the ideal instance: of the extended reals).
  Every entry of the result depends on one entry of `x` and on the entries of `w` and `b` in its own column; the
  row does not enter the scale or the shift.
-/
import Idealize.ShloMosaic.PureOps.Ideal
import Idealize.ShloMosaic.Lib.ValueIdx

noncomputable section

namespace Cert.Spec

open Idealize.ShloMosaic

variable {F : FTy → Type} [FloatOps F]

/-- The matrix's shape: 16384 rows of 4096 columns. -/
abbrev Mat : Shape := ⟨2, ![16384, 4096]⟩
/-- The shape of the scale and of the shift: one entry per column. -/
abbrev Cols : Shape := ⟨1, ![4096]⟩

/-- The column of a matrix index, as an index of a per-column vector. -/
abbrev colOf (i : Mat.Idx) : Cols.Idx := fun a => match a with
  | ⟨0, _⟩ => ⟨(i 1).val, (i 1).isLt⟩

/-- `x` scaled by `w` and shifted by `b`, column by column: entry `(r, j)` is `x[r, j] · w[j] + b[j]`. -/
def scaleShift (x : Mat.Idx → Elt F .f32) (w b : Cols.Idx → Elt F .f32) : Mat.Idx → Elt F .f32 :=
  fun i => FloatOps.addf (FloatOps.mulf (x i) (w (colOf i))) (b (colOf i))

theorem scaleShift_apply (x : Mat.Idx → Elt F .f32) (w b : Cols.Idx → Elt F .f32) (i : Mat.Idx) :
    scaleShift x w b i = FloatOps.addf (FloatOps.mulf (x i) (w (colOf i))) (b (colOf i)) := rfl

end Cert.Spec

end
-- ==== Proof.KernelValue.lean ====
/-
  The kernel's result is the specification of its three argument arrays.

  Before the region, the scale vector and the shift vector (4096 entries each) are re-laid as arrays of one row and
  4096 columns: entry `(0, j)` of the row is entry `j` of the vector, a reshape moving nothing in row-major order.
  The matrix the region reads is the argument itself. Put into what the blocks leave (`Blocks.final`), entry `(r, j)`
  of the result is `x[r, j] · w[j] + b[j]`: the specification.
-/
import proofs.«427178_j283467842320_3_alg».proof.Proof.KernelBlocks
import proofs.«427178_j283467842320_3_alg».proof.Proof.Spec
import Idealize.ShloMosaic.Lib.StableHlo.Run

noncomputable section

namespace Cert.KernelIdeal.KernelValue

open Cert.KernelIdeal Cert.KernelIdeal.Gen Cert.KernelIdeal.Value Cert.KernelIdeal.Blocks Idealize.ShloMosaic Idealize.ShloMosaic.TcCoe Idealize.SL.Sem
open Cert.Spec (colOf scaleShift)

variable {F : FTy → Type} [FloatOps F]
variable (m : (ℓ : Loc nD τ sig) → Buf (Elt F) ℓ) (ρ : Dev nD → PrngReg)

/-- The one-row array of the scale, as the region finds it: the scale vector reshaped. -/
theorem scale_row (c : Dev nD) :
    (V m c main_v0 : S1x4096.Idx → Elt F .f32)
      = shapeCast S1x4096 (m ((c : Thread nD τ).loc main_arg1)) shapeCasts_S4096_S1x4096 := by
  dsimp only [Gen.V, Gen.hostOps0]; after_results; rfl

/-- The one-row array of the shift, as the region finds it: the shift vector reshaped. -/
theorem shift_row (c : Dev nD) :
    (V m c main_v1 : S1x4096.Idx → Elt F .f32)
      = shapeCast S1x4096 (m ((c : Thread nD τ).loc main_arg2)) shapeCasts_S4096_S1x4096 := by
  dsimp only [Gen.V, Gen.hostOps0]; after_results; rfl

/-- A vector reshaped to one row, read under a matrix index, is the vector at the index's column. -/
theorem row_under (v : S4096.Idx → Elt F .f32) (i : S16384x4096.Idx) :
    shapeCast S1x4096 v shapeCasts_S4096_S1x4096 (under i) = v (colOf i) := by
  refine (shapeCast_addUnit_apply ![4096] v shapeCasts_S4096_S1x4096 (under i)).trans ?_
  congr 1
  funext a
  match a with
  | ⟨0, _⟩ => rfl

/-- What the blocks leave, over the arrays as the region finds them, is the specification of the arguments. -/
theorem result_eq (c : Dev nD) :
    affine (V m c main_arg0) (V m c main_v0) (V m c main_v1)
      = scaleShift (m ((c : Thread nD τ).loc main_arg0)) (m ((c : Thread nD τ).loc main_arg1)) (m ((c : Thread nD τ).loc main_arg2)) := by
  funext i
  show FloatOps.addf (FloatOps.mulf (V m c main_arg0 i) ((V m c main_v0 : S1x4096.Idx → Elt F .f32) (under i)))
      ((V m c main_v1 : S1x4096.Idx → Elt F .f32) (under i))
    = FloatOps.addf (FloatOps.mulf (m ((c : Thread nD τ).loc main_arg0) i) (m ((c : Thread nD τ).loc main_arg1) (colOf i)))
      (m ((c : Thread nD τ).loc main_arg2) (colOf i))
  rw [scale_row, shift_row, row_under, row_under, V_main_arg0]

/-- The kernel's run, read: the result array ends at the specification of the argument arrays, which end unchanged. -/
theorem run : θ_run defs (onTc (τ := τ) (main (F := F))) ⟨m, fun _ => 0, ρ⟩ fun r => ∀ c : Dev nD,
      r.2.mem ((c : Thread nD τ).loc main_v2)
        = scaleShift (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1.trans (final m c)).trans (result_eq m c), (h c).2⟩)
    (run_blocks m ρ)

end Cert.KernelIdeal.KernelValue

end
-- ==== Proof.RefValue.lean ====
/-
  The reference's result is the specification.

  The reference lifts the scale and the shift to full matrices in two steps each (a per-column vector to one row,
  one row to 16384 equal rows) and then multiplies and adds entry by entry. Read at a matrix index `(r, j)`, each
  lift forgets `r` and keeps `j`, so the entry is `x[r, j] · w[j] + b[j]`: the specification's entry.
-/
import proofs.«427178_j283467842320_3_alg».proof.Proof.Gen.ReferenceIdeal.Read
import proofs.«427178_j283467842320_3_alg».proof.Proof.Spec

noncomputable section

namespace Cert.ReferenceIdeal.RefValue

open Cert.ReferenceIdeal Cert.ReferenceIdeal.Read Idealize.ShloMosaic Cert.Spec

variable {F : FTy → Type} [FloatOps F]

/-- Both lifts of the scale, composed, send a matrix index to its column. -/
theorem scale_col (i : S16384x4096.Idx) : idx_main_v0 (idx_main_v1 i) = colOf i :=
  funext fun a => Fin.ext (by match a with | ⟨0, _⟩ => rfl)

/-- Both lifts of the shift, composed, send a matrix index to its column. -/
theorem shift_col (i : S16384x4096.Idx) : idx_main_v3 (idx_main_v4 i) = colOf i :=
  funext fun a => Fin.ext (by match a with | ⟨0, _⟩ => rfl)

/-- The reference's last stage is the specification, entry by entry. -/
theorem result_eq (x : (⟨S16384x4096, .f32⟩ : BufTy).Contents (Elt F)) (w b : (⟨S4096, .f32⟩ : BufTy).Contents (Elt F)) :
    val_main_v5 (F := F) x w b = scaleShift x w b := by
  funext i
  rw [val_main_v5_apply, val_main_v2_apply, val_main_v1_apply, val_main_v0_apply, val_main_v4_apply,
    val_main_v3_apply, scale_col, shift_col]
  rfl

end Cert.ReferenceIdeal.RefValue

end
-- ==== Proof.lean ====
/-
  A per-column scale and shift of a matrix: `out[r, j] = x[r, j] · w[j] + b[j]` over 16384 rows and 4096 columns.

  The kernel walks the matrix in 32 blocks of 512 rows; at each block it multiplies by the scale's single row and
  adds the shift's single row, both repeated down the block, and writes the block back to a result array that
  starts as a copy of the matrix. The reference lifts the scale and the shift to full matrices and multiplies and
  adds entry by entry. At the ideal instance both leave `x[r, j] · w[j] + b[j]` at every entry, the same product
  and the same sum of the same three extended reals in the same order, so no law of arithmetic is needed and the
  finiteness of the inputs is never used: the two results are one function (`Cert.Spec.scaleShift`).

  Proof/Spec.lean states that function; Proof/KernelBlocks.lean shows each grid point writes its rows of it and the
  blocks tile the rows; Proof/KernelValue.lean reads the reshaped scale and shift back as the argument vectors;
  Proof/RefValue.lean reads the reference's lifts at an index. The idealization rewrote nothing, so `preserves` has
  nothing to state.
-/
import proofs.«427178_j283467842320_3_alg».proof.Defs
import proofs.«427178_j283467842320_3_alg».proof.Proof.Gen.Kernel
import proofs.«427178_j283467842320_3_alg».proof.Proof.Gen.Kernel.Skeleton
import proofs.«427178_j283467842320_3_alg».proof.Proof.Gen.Kernel.Launch
import proofs.«427178_j283467842320_3_alg».proof.Proof.Gen.Kernel.Points
import proofs.«427178_j283467842320_3_alg».proof.Proof.Gen.Kernel.Frame
import proofs.«427178_j283467842320_3_alg».proof.Proof.Gen.KernelIdeal
import proofs.«427178_j283467842320_3_alg».proof.Proof.Gen.KernelIdeal.Skeleton
import proofs.«427178_j283467842320_3_alg».proof.Proof.Gen.KernelIdeal.Launch
import proofs.«427178_j283467842320_3_alg».proof.Proof.Gen.KernelIdeal.Points
import proofs.«427178_j283467842320_3_alg».proof.Proof.Gen.KernelIdeal.Frame
import proofs.«427178_j283467842320_3_alg».proof.Proof.Gen.KernelIdeal.Value
import proofs.«427178_j283467842320_3_alg».proof.Proof.Gen.ReferenceIdeal
import proofs.«427178_j283467842320_3_alg».proof.Proof.Gen.ReferenceIdeal.Run
import proofs.«427178_j283467842320_3_alg».proof.Proof.Gen.ReferenceIdeal.Read
import proofs.«427178_j283467842320_3_alg».proof.Proof.Gen.Pre_finite_inputs
import proofs.«427178_j283467842320_3_alg».proof.Proof.KernelValue
import proofs.«427178_j283467842320_3_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, the kernel's result array and the reference's both end at the scaled and shifted
    matrix of those arguments. -/
theorem algebraic : Cert.algebraic_KernelIdeal_ReferenceIdeal := by
  intro m ρ m' ρ' _ hagree
  refine ⟨fun c => Cert.Spec.scaleShift
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
